-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S33554432 : Shape := ⟨1, ![33554432]⟩
abbrev S262144x128 : Shape := ⟨2, ![262144, 128]⟩
abbrev S4096x128 : Shape := ⟨2, ![4096, 128]⟩

abbrev nBuf : Space → Nat
  | .hbm => 4
  | .vmem => 4
  | .smem => 0
  | _ => 0

abbrev bufTy : (tb : Table) → Fin (tcTables nBuf tb) → BufTy
  | .hbm, ⟨0, _⟩ => ⟨S33554432, .f32⟩
  | .hbm, ⟨1, _⟩ => ⟨S262144x128, .f32⟩
  | .hbm, ⟨2, _⟩ => ⟨S262144x128, .f32⟩
  | .hbm, ⟨3, _⟩ => ⟨S33554432, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S33554432_S262144x128 : S33554432.ShapeCasts S262144x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S262144x128_S33554432 : S262144x128.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S_, .f32⟩
  | .hbm, ⟨2, _⟩ => ⟨S33554432, .f32⟩
  | .hbm, ⟨3, _⟩ => ⟨S33554432, .f32⟩
  | .hbm, ⟨4, _⟩ => ⟨S_, .f32⟩
  | .hbm, ⟨5, _⟩ => ⟨S33554432, .f32⟩
  | .hbm, ⟨6, _⟩ => ⟨S33554432, .i1⟩
  | .hbm, ⟨7, _⟩ => ⟨S33554432, .f32⟩
  | .hbm, ⟨8, _⟩ => ⟨S33554432, .f32⟩
  | .hbm, ⟨9, _⟩ => ⟨S33554432, .f32⟩
  | .hbm, ⟨10, _⟩ => ⟨S_, .f32⟩
  | .hbm, ⟨11, _⟩ => ⟨S_, .i32⟩
  | .hbm, ⟨12, _⟩ => ⟨S_, .f32⟩
  | .hbm, ⟨13, _⟩ => ⟨S33554432, .f32⟩
  | .hbm, ⟨14, _⟩ => ⟨S33554432, .f32⟩
  | .hbm, ⟨15, _⟩ => ⟨S_, .f32⟩
  | .hbm, ⟨16, _⟩ => ⟨S33554432, .f32⟩
  | .hbm, ⟨17, _⟩ => ⟨S33554432, .f32⟩
  | .hbm, ⟨18, _⟩ => ⟨S_, .f32⟩
  | .hbm, ⟨19, _⟩ => ⟨S33554432, .f32⟩
  | .hbm, ⟨20, _⟩ => ⟨S33554432, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v2 : Ref sig .tc := ⟨.hbm, 9, rfl⟩
abbrev main_cst_0 : Ref sig .tc := ⟨.hbm, 10, rfl⟩
abbrev main_c : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)

variable [Facts₀]

class Facts : Prop extends Facts₀ where

variable [Facts]
-- ==== Proof.Levels.lean ====
/-
  The arithmetic both programs share, on the extended reals.

  An input `x` is scaled by 1024 (the kernel multiplies by 1024, the reference divides by 2^-10: the same
  extended real, since 2^-10 is a nonzero real whose reciprocal is 1024), truncated toward zero (the ceiling
  below zero, the floor elsewhere), clamped to [0, 1023] and multiplied by 2^-10. Everything after the scaling
  is ONE function `level` of the scaled value and of the upper bound; the two programs differ only in how they
  spell its two arguments (`scaled_eq`, `top_eq`).
-/
import Idealize.ShloMosaic.PureOps.Ideal
import Idealize.ShloMosaic.Lib.ValueIdx

noncomputable section

namespace Cert.Levels

open Idealize.ShloMosaic

/-- The pattern of `1024.0` denotes the real 1024. -/
theorem ofBits_1024 : Ideal.ofBits .f32 0x44800000#32 = ((1024 : ℝ) : EReal) := by
  simp [Ideal.ofBits, Ideal.ieee, -EReal.coe_mul]; norm_num

/-- The pattern of `9.765625e-4` denotes the real 2^-10 = 1/1024. -/
theorem ofBits_step : Ideal.ofBits .f32 0x3A800000#32 = ((1 / 1024 : ℝ) : EReal) := by
  simp [Ideal.ofBits, Ideal.ieee, -EReal.coe_mul]; norm_num

/-- The pattern of `1023.0` denotes the real 1023. -/
theorem ofBits_1023 : Ideal.ofBits .f32 0x447FC000#32 = ((1023 : ℝ) : EReal) := by
  simp [Ideal.ofBits, Ideal.ieee, -EReal.coe_mul]; norm_num

/-- Multiplying by 1024 is dividing by 2^-10, on every extended real (the infinities included: the divisor is a
    nonzero real, so the quotient is the product with its reciprocal). -/
theorem scaled_eq (x : EReal) :
    x * Ideal.ofBits .f32 0x44800000#32 = Ideal.div x (Ideal.ofBits .f32 0x3A800000#32) := by
  rw [ofBits_step, ofBits_1024, Ideal.div_coe (by norm_num : (1 / 1024 : ℝ) ≠ 0)]
  norm_num

/-- The float literal 1023.0 is the integer 1023 converted. -/
theorem top_eq : Ideal.ofBits .f32 0x447FC000#32 = (((1023#32 : BitVec 32).toInt : ℝ) : EReal) := by
  rw [ofBits_1023]
  norm_num [BitVec.toInt]

/-- From the scaled value `y` and the upper bound `hi`: truncate toward zero, clamp to [0, hi], multiply by 2^-10. -/
def level (hi y : EReal) : EReal :=
  min hi (max (Ideal.ofBits .f32 0x00000000#32)
      (Scalar.select (Ideal.cmp .olt y (Ideal.ofBits .f32 0x00000000#32))
        (Ideal.liftRound Int.ceil y) (Ideal.liftRound Int.floor y)))
    * Ideal.ofBits .f32 0x3A800000#32

/-- The kernel's entry: scale by the product with 1024, bound by the literal 1023.0. -/
def kernelLevel (x : EReal) : EReal :=
  level (Ideal.ofBits .f32 0x447FC000#32) (x * Ideal.ofBits .f32 0x44800000#32)

/-- The reference's entry: scale by the quotient by 2^-10, bound by the integer 1023 converted. -/
def referenceLevel (x : EReal) : EReal :=
  level (((1023#32 : BitVec 32).toInt : ℝ) : EReal) (Ideal.div x (Ideal.ofBits .f32 0x3A800000#32))

/-- The two entries are one function. -/
theorem kernelLevel_eq (x : EReal) : kernelLevel x = referenceLevel x := by
  unfold kernelLevel referenceLevel
  rw [scaled_eq, top_eq]

end Cert.Levels

end
-- ==== Proof.KernelValue.lean ====
/-
  What the idealized kernel's program leaves in its result buffer.

  @main reshapes the flat input of 2^25 entries to 262144 rows of 128, runs the body over 64 blocks of 4096 rows,
  and reshapes the rows back. The body is pointwise: entry `j` of a block becomes `kernelLevel` of entry `j` of the
  input block (scale by 1024, truncate toward zero, clamp to [0, 1023], scale by 2^-10). Input and output blocks
  sit at the same place (block `t` is rows 4096·t … 4096·t + 4095 of both arrays), and the 64 output blocks tile the
  array, so after the region the row array is `kernelLevel` of the reshaped input entry by entry; a reshape only
  renames indices, so it commutes with a pointwise map, and the reshape there and back is the identity: the result
  buffer ends at `kernelLevel` of the input at every index.
-/
import proofs.«181045_j5342939316844_1_alg».proof.Proof.Gen.KernelIdeal.Frame
import proofs.«181045_j5342939316844_1_alg».proof.Proof.Levels
import Idealize.ShloMosaic.Lib.Pipeline.Value

noncomputable section

namespace Cert.KernelIdeal.KernelValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The body, entry by entry -/

/-- The body's one payload is pointwise: each entry is `kernelLevel` of the loaded block's entry. -/
theorem pay_eq (x0 : Vec Ideal S4096x128 .f32) : k0_pay1 x0 = fun j => Cert.Levels.kernelLevel (x0 j) := by
  unfold k0_pay1
  simp only [shapeCast_self]
  rfl

theorem zero_offsets : (![0, 0] : Fin 2 → Nat) = fun _ => 0 := funext fun a => by fin_cases a <;> rfl

/-- The row array after the region, as a function of the row array the region finds. -/
abbrev rowsLevel (a : S262144x128.Idx → Elt Ideal .f32) : S262144x128.Idx → Elt Ideal .f32 :=
  fun i => Cert.Levels.kernelLevel (a i)

/-! ## The blocks -/

/-- The index maps over the grid: input and output blocks at the same place, block `t` at row block `t`. -/
theorem idx_facts : ∀ t : Fin cfg0.N, win0_0.index t (0 : Fin 2) = win0_1.index t (0 : Fin 2)
    ∧ win0_0.index t (1 : Fin 2) = win0_1.index t (1 : Fin 2)
    ∧ win0_1.index t (0 : Fin 2) = t.val ∧ win0_1.index t (1 : Fin 2) = 0 :=
  (by decide +kernel : ∀ t : Fin grid0.N, _)

/-- What point `t` writes back is block `t` of `rowsLevel` of the row array the region finds. -/
theorem flushed_eq (c : Dev nD) (t : Fin cfg0.N) :
    (dats m 0 c).flushed 1 t = ((cfg0.win 1).blk t).view.read (Elt Ideal) (rowsLevel (V m c main_v0)) := by
  show (cfg0.win 1).cut (grid0.coords t) ((dats m 0 c).after 1 t) = _
  rw [after0_1]
  unfold out0_1
  rw [View.canon_unit_zero zero_offsets]
  simp only [View.ld_unit_zero (S := S4096x128) zero_offsets]
  rw [pay_eq]
  obtain ⟨e0, e1, e2, e3⟩ := idx_facts t
  funext j
  show Cert.Levels.kernelLevel (V m c main_v0 (((cfg0.win 0).blk t).view.emb j))
    = Cert.Levels.kernelLevel (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 4096 + 1 * (j 0).val = win0_1.index t (0 : Fin 2) * 4096 + 1 * (j 0).val; omega
    | ⟨1, _⟩ => show win0_0.index t (1 : Fin 2) * 128 + 1 * (j 1).val = win0_1.index t (1 : Fin 2) * 128 + 1 * (j 1).val; omega
  rw [h0]

/-- An index of the row array is in point `t`'s block iff each coordinate is in the block's range on its axis. -/
theorem mem_blk (t : Fin cfg0.N) (i : S262144x128.Idx) :
    i ∈ ((cfg0.win 1).blk t).view.set ↔ ∀ a : Fin 2, win0_1.index t a * S4096x128.size a ≤ (i a).val ∧ (i a).val < win0_1.index t a * S4096x128.size a + S4096x128.size a := by
  show i ∈ ((View.whole main_v1).slice (win0_1.rect t)).set ↔ _
  rw [View.set_slice_whole, Rect.mem_set_unit]
  exact Iff.rfl

/-- Every row lies in the block of the point numbered by the row's quotient by 4096. -/
theorem cover (i : S262144x128.Idx) :
    ∃ t : Fin cfg0.N, (cfg0.win 1).flush t = true ∧ i ∈ ((cfg0.win 1).blk t).view.set := by
  have hi0 : (i 0).val < 262144 := (i 0).isLt
  have hi1 : (i 1).val < 128 := (i 1).isLt
  have hN : cfg0.N = 64 := N_0
  let t : Fin cfg0.N := ⟨(i 0).val / 4096, by rw [hN]; omega⟩
  obtain ⟨e0, e1, e2, e3⟩ := idx_facts t
  have e2' : win0_1.index t (0 : Fin 2) = (i 0).val / 4096 := e2
  refine ⟨t, flush0_1 t, ?_⟩
  rw [mem_blk]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 128 ≤ (i 1).val ∧ (i 1).val < win0_1.index t (1 : Fin 2) * 128 + 128; omega

/-- The row array after the region. -/
theorem rows_final (c : Dev nD) : (dats m 0 c).arrAt 1 cfg0.N = rowsLevel (V m c main_v0) :=
  (dats m 0 c).arrAt_eq_of_cover 1 (rowsLevel (V m c main_v0)) (fun t _ => flushed_eq m c t) cover

/-! ## The reshapes around the region -/

/-- The row array the region finds is the input, reshaped. -/
theorem V_rows (c : Dev nD) :
    (V m c main_v0 : S262144x128.Idx → Elt Ideal .f32)
      = shapeCast S262144x128 (m ((c : Thread nD τ).loc main_arg0)) shapeCasts_S33554432_S262144x128 := by
  show StableHlo.after hostOps0 (fun b => m (c, b)) (Proc.devRef .tc main_v0) = _
  after_results
  rfl

/-- The result buffer after the last reshape: the row array after the region, reshaped back. -/
theorem tail_eq (c : Dev nD) :
    (Pipeline.afterTail₀ cfgs (dats m) 0 (V0 m) [hostOps1] c main_v2 : S33554432.Idx → Elt Ideal .f32)
      = shapeCast S33554432 ((dats m 0 c).arrAt 1 cfg0.N) shapeCasts_S262144x128_S33554432 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = (dats m 0 c).arrAt 1 cfg0.N := Pipeline.withArrays_arr spec0 launch0.win.arr_inj c _ _ 1
  rw [e]
  rfl

/-- The result buffer as a function of the input: `kernelLevel` at every index. -/
theorem result_eq (c : Dev nD) :
    (Pipeline.afterTail₀ cfgs (dats m) 0 (V0 m) [hostOps1] c main_v2 : S33554432.Idx → Elt Ideal .f32)
      = fun i => Cert.Levels.kernelLevel (m ((c : Thread nD τ).loc main_arg0) i) := by
  rw [tail_eq, rows_final, V_rows]
  exact shapeCast_shapeCast (fun i => Cert.Levels.kernelLevel (m ((c : Thread nD τ).loc main_arg0) i))
    shapeCasts_S33554432_S262144x128 shapeCasts_S262144x128_S33554432

/-! ## The run -/

/-- From any memory with zero counters every weakly fair execution of @main terminates, with the result buffer at
    `kernelLevel` of the input entry by entry and the input as launched. -/
theorem run : θ_run defs (onTc (τ := τ) (main (F := Ideal))) ⟨m, fun _ => 0, ρ⟩ fun r => ∀ c : Dev nD,
      r.2.mem ((c.tc : Thread nD τ).loc main_v2) = (fun i => Cert.Levels.kernelLevel (m ((c.tc : Thread nD τ).loc main_arg0) i))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.KernelValue

end
-- ==== Proof.RefRun.lean ====
/-
  The reference's run, read back.

  @main divides the input by 2^-10, truncates toward zero (its `trunc` is a comparison with zero, a ceiling, a
  floor and a select), clamps between 0 and the integer 1023 converted (`clip`: a maximum then a minimum), and
  multiplies by 2^-10. The three functions the module calls are run at their call sites over the buffers of each
  call, so @main is ONE straight line of twenty host operations; the run of a straight line ends with every
  buffer at the fold of the operations over the launch contents, and the fold at the result buffer is the
  composed term `result` of the argument array.
-/
import proofs.«181045_j5342939316844_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- A scalar spread over the whole array. -/
abbrev spread (v : FVec F S_ .f32) : FVec F S33554432 .f32 := broadcastInDim S33554432 ![] bcast_S_S33554432 v

/-- @main's twenty operations in order, each outlined function's lines at its call. -/
abbrev ops : List (HloOp τ sig (Elt F)) :=
  [ nullary main_cst (constant S_ .f32 0x3A800000#32),
    unary main_cst main_v0 (broadcastInDim S33554432 ![] bcast_S_S33554432 : (⟨S_, .f32⟩ : BufTy).Contents (Elt F) → (⟨S33554432, .f32⟩ : BufTy).Contents (Elt F)),
    binary main_arg0 main_v0 main_v1 (Host.divf : (⟨S33554432, .f32⟩ : BufTy).Contents (Elt F) → (⟨S33554432, .f32⟩ : BufTy).Contents (Elt F) → (⟨S33554432, .f32⟩ : BufTy).Contents (Elt F)),
    TRef.nullary main_call0.cst (constant S_ .f32 0x00000000#32),
    TRef.unary main_call0.cst main_call0.v0 (broadcastInDim S33554432 ![] bcast_S_S33554432),
    TRef.binary (.of main_v1) main_call0.v0 main_call0.v1 (cmpf .olt),
    TRef.unary (.of main_v1) main_call0.v2 Host.ceil,
    TRef.unary (.of main_v1) main_call0.v3 Host.floor,
    TRef.ternary main_call0.v1 main_call0.v2 main_call0.v3 main_call0.call0.v0 select,
    nullary main_cst_0 (constant S_ .f32 0x00000000#32),
    nullary main_c (constantI S_ 32 1023#32),
    TRef.unary (.of main_cst_0) main_call1.v0 id,
    TRef.unary main_call1.v0 main_call1.v1 (broadcastInDim S33554432 ![] bcast_S_S33554432),
    TRef.binary main_call1.v1 (.of main_v2) main_call1.v2 maximumf,
    TRef.unary (.of main_c) main_call1.v3 (sitofp .f32),
    TRef.unary main_call1.v3 main_call1.v4 (broadcastInDim S33554432 ![] bcast_S_S33554432),
    TRef.binary main_call1.v4 main_call1.v2 main_call1.v5 minimumf,
    nullary main_cst_1 (constant S_ .f32 0x3A800000#32),
    unary main_cst_1 main_v4 (broadcastInDim S33554432 ![] bcast_S_S33554432 : (⟨S_, .f32⟩ : BufTy).Contents (Elt F) → (⟨S33554432, .f32⟩ : BufTy).Contents (Elt F)),
    binary main_v3 main_v4 main_v5 (mulf : (⟨S33554432, .f32⟩ : BufTy).Contents (Elt F) → (⟨S33554432, .f32⟩ : BufTy).Contents (Elt F) → (⟨S33554432, .f32⟩ : BufTy).Contents (Elt F)) ]

set_option maxRecDepth 1024 in
/-- @main is that straight line: the functions unfolded at their calls, the sequencing reassociated. -/
theorem main_eq (c : Dev nD) : main (F := F) c = seq ops := by
  simp only [main, fn_trunc.body, fn_where.body, fn_clip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    unary_bufs_sub .., unary_bufs_sub .., ternary_bufs_sub .., nullary_bufs_sub .., nullary_bufs_sub .., unary_bufs_sub ..,
    unary_bufs_sub .., binary_bufs_sub .., unary_bufs_sub .., unary_bufs_sub .., binary_bufs_sub .., nullary_bufs_sub ..,
    unary_bufs_sub .., binary_bufs_sub ..⟩

/-- The input divided by 2^-10. -/
def scaled (a : FVec F S33554432 .f32) : FVec F S33554432 .f32 :=
  Host.divf a (spread (constant S_ .f32 0x3A800000#32))

/-- What @main returns, as a term of its argument array. -/
def result (a : FVec F S33554432 .f32) : FVec F S33554432 .f32 :=
  mulf
    (minimumf (spread (sitofp .f32 (constantI S_ 32 1023#32)))
      (maximumf (spread (constant S_ .f32 0x00000000#32))
        (select (cmpf .olt (scaled a) (spread (constant S_ .f32 0x00000000#32))) (Host.ceil (scaled a)) (Host.floor (scaled a)))))
    (spread (constant S_ .f32 0x3A800000#32))

/-- The fold of the twenty operations at the result buffer is `result` of the argument buffer's contents. -/
theorem out_eq (V : Valuation τ sig (Elt F)) :
    after ops V (main_v5 : DevRef τ sig) = result (V (main_arg0 : DevRef τ sig)) := by
  simp only [after_cons, after_nil]
  rfl

/-- No operation writes the argument buffer. -/
theorem arg0_eq (V : Valuation τ sig (Elt F)) :
    after ops V (main_arg0 : DevRef τ sig) = V (main_arg0 : DevRef τ sig) := by
  simp only [after_cons, after_nil]
  rfl

/-- From any memory with zero counters every weakly fair execution of @main terminates, with the result buffer at
    `result` of the argument array and the argument array as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = result (m ((c.tc : Thread nD τ).loc main_arg0))
      ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's result, entry by entry.

  Every operation of the reference is pointwise, and each of its constants is a scalar spread over the array, which
  reads the scalar at every index. So entry `i` of the result is `referenceLevel` of entry `i` of the input: the
  quotient by 2^-10, truncated toward zero, clamped to [0, 1023] (the bound the integer 1023 converted), times 2^-10.
-/
import proofs.«181045_j5342939316844_1_alg».proof.Proof.RefRun
import proofs.«181045_j5342939316844_1_alg».proof.Proof.Levels
import Idealize.ShloMosaic.Lib.Pipeline.Value

noncomputable section

namespace Cert.ReferenceIdeal.RefValue

open Cert.ReferenceIdeal Cert.ReferenceIdeal.Gen Idealize.ShloMosaic Idealize.ShloMosaic.ValueIdx

/-- A scalar spread over the array reads the scalar at every index. -/
theorem spread_apply {α : Type} (v : S_.Idx → α) (i : S33554432.Idx) :
    broadcastInDim S33554432 ![] bcast_S_S33554432 v i = v ix0 :=
  broadcastInDim_apply ![] bcast_S_S33554432 v i ix0 (fun a => a.elim0)

/-- Entry `i` of the reference's result is `referenceLevel` of entry `i` of its argument. -/
theorem result_apply (a : FVec Ideal S33554432 .f32) (i : S33554432.Idx) :
    RefRun.result a i = Cert.Levels.referenceLevel (a i) := by
  simp only [RefRun.result, RefRun.scaled, RefRun.spread, mulf, minimumf, maximumf, select, cmpf, Host.ceil, Host.floor,
    Host.divf, sitofp, spread_apply]
  rfl

end Cert.ReferenceIdeal.RefValue

end
-- ==== Proof.lean ====
/-
  A histogram-binning encoder over 2^25 floats: each input `x` becomes `clamp(trunc(1024·x), 0, 1023) · 2^-10`.

  The kernel computes it block by block over the input reshaped to rows of 128, multiplying by the literal 1024;
  the reference computes it on the flat array, dividing by 2^-10 and clamping against the integer 1023 converted.
  On the extended reals the quotient by the nonzero real 2^-10 is the product with 1024 (at the infinities too)
  and the two bounds are the same number, so entry by entry both programs compute one function of the input
  entry (`Levels.kernelLevel_eq`); the reshape before the kernel and the reshape after it only rename indices and
  cancel around a pointwise map. No property of the input is used beyond what the programs' frames ask (nothing):
  the equation holds at every extended real.

  The three frames: the kernel's two are its generated frame certificates; the reference's is its run with the
  result dropped. The idealization rewrote nothing, so `preserves` has no conjunct.
-/
import proofs.«181045_j5342939316844_1_alg».proof.Defs
import proofs.«181045_j5342939316844_1_alg».proof.Proof.Gen.Kernel
import proofs.«181045_j5342939316844_1_alg».proof.Proof.Gen.Kernel.Skeleton
import proofs.«181045_j5342939316844_1_alg».proof.Proof.Gen.Kernel.Launch
import proofs.«181045_j5342939316844_1_alg».proof.Proof.Gen.Kernel.Points
import proofs.«181045_j5342939316844_1_alg».proof.Proof.Gen.Kernel.Frame
import proofs.«181045_j5342939316844_1_alg».proof.Proof.Gen.KernelIdeal
import proofs.«181045_j5342939316844_1_alg».proof.Proof.Gen.KernelIdeal.Skeleton
import proofs.«181045_j5342939316844_1_alg».proof.Proof.Gen.KernelIdeal.Launch
import proofs.«181045_j5342939316844_1_alg».proof.Proof.Gen.KernelIdeal.Points
import proofs.«181045_j5342939316844_1_alg».proof.Proof.Gen.KernelIdeal.Frame
import proofs.«181045_j5342939316844_1_alg».proof.Proof.Gen.ReferenceIdeal
import proofs.«181045_j5342939316844_1_alg».proof.Proof.Gen.Pre_finite_inputs
import proofs.«181045_j5342939316844_1_alg».proof.Proof.Levels
import proofs.«181045_j5342939316844_1_alg».proof.Proof.KernelValue
import proofs.«181045_j5342939316844_1_alg».proof.Proof.RefRun
import proofs.«181045_j5342939316844_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Both runs end with the result at `kernelLevel` of the input entry by entry: the kernel's by its value, the
    reference's by its term read at an index and the equality of the two scalar functions. -/
theorem algebraic : Cert.algebraic_KernelIdeal_ReferenceIdeal := by
  intro m ρ m' ρ' _ hagree
  refine ⟨fun c i => Cert.Levels.kernelLevel (m ((c.tc : Thread Cert.KernelIdeal.nD Cert.KernelIdeal.τ).loc Cert.KernelIdeal.main_arg0) i),
    Cert.KernelIdeal.KernelValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  funext i
  rw [Cert.ReferenceIdeal.RefValue.result_apply]
  exact (Cert.Levels.kernelLevel_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
